-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩
abbrev S4096x16 : Shape := ⟨2, ![4096, 16]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  reducesTo_S_S_d : S_.ReducesTo [] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v12 : IVec S_ 1) (main_v15 : IVec S4096x16 1) (main_c_5 : IVec S_ 1) : IVec S_ 1 :=
  let main_v16 : IVec S_ 1 := (fun x v => Host.reduce IntOp.andi x v reducesTo_S4096x16_S_d0_1 h_S_) main_v15 main_c_5
  let main_v17 : IVec S_ 1 := andi main_v12 main_v16
  main_v17

def fn {F : FTy → Type} [FloatOps F] (main_arg0 : FVec F S16384x512 .f32) (main_arg1 : FVec F S4096x512 .f32) (main_arg2 : FVec F S_ .f32) (main_arg3 : FVec F S4096x16 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S4096x16 .f32 := Host.absf main_arg3
  let main_cst_4 : FVec F S_ .f32 := constant S_ .f32 0x7F800000#32
  let main_v14 : FVec F S4096x16 .f32 := broadcastInDim S4096x16 ![] bcast_S_S4096x16 main_cst_4
  let main_v15 : IVec S4096x16 1 := cmpf .olt main_v13 main_v14
  let main_c_5 : IVec S_ 1 := constantI S_ 1 1#1
  fn_part1 (F := F) main_v12 main_v15 main_c_5
-- ==== Kernel.lean ====
abbrev S16384x512 : Shape := ⟨2, ![16384, 512]⟩
abbrev S4096x512 : Shape := ⟨2, ![4096, 512]⟩
abbrev S_ : Shape := ⟨0, ![]⟩
abbrev S4096x16 : Shape := ⟨2, ![4096, 16]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S16384x16 : Shape := ⟨2, ![16384, 16]⟩
abbrev S2048x512 : Shape := ⟨2, ![2048, 512]⟩
abbrev S512x1024 : Shape := ⟨2, ![512, 1024]⟩
abbrev S2048x1 : Shape := ⟨2, ![2048, 1]⟩
abbrev S1x1024 : Shape := ⟨2, ![1, 1024]⟩
abbrev S1024x16 : Shape := ⟨2, ![1024, 16]⟩
abbrev S2048x16 : Shape := ⟨2, ![2048, 16]⟩
abbrev S2048x1024 : Shape := ⟨2, ![2048, 1024]⟩

abbrev nBuf : Space → Nat
  | .hbm => 26
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S_, .f32⟩
  | .hbm, ⟨3, _⟩ => ⟨S4096x16, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S16384x1, .f32⟩
  | .hbm, ⟨14, _⟩ => ⟨S16384x1, .f32⟩
  | .hbm, ⟨15, _⟩ => ⟨S1x4096, .f32⟩
  | .hbm, ⟨16, _⟩ => ⟨S1x4096, .f32⟩
  | .hbm, ⟨17, _⟩ => ⟨S16384x512, .bf16⟩
  | .hbm, ⟨18, _⟩ => ⟨S_, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S512x4096, .f32⟩
  | .hbm, ⟨23, _⟩ => ⟨S512x4096, .bf16⟩
  | .hbm, ⟨24, _⟩ => ⟨S4096x16, .bf16⟩
  | .hbm, ⟨25, _⟩ => ⟨S16384x16, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S1024x16, .bf16⟩
  | .local _ .vmem, ⟨9, _⟩ => ⟨S1024x16, .bf16⟩
  | .local _ .vmem, ⟨10, _⟩ => ⟨S2048x16, .f32⟩
  | .local _ .vmem, ⟨11, _⟩ => ⟨S2048x16, .f32⟩
  | .local _ .vmem, ⟨12, _⟩ => ⟨S2048x16, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S4096x1_0 : S4096.BroadcastsInDim S4096x1 (![0] : Fin 1 → Fin S4096x1.rank)
  shapeCasts_S4096x1_S1x4096 : S4096x1.ShapeCasts S1x4096
  bcast_S_S16384x1 : S_.BroadcastsInDim S16384x1 (![] : Fin 0 → Fin S16384x1.rank)
  bcast_S_S1x4096 : S_.BroadcastsInDim S1x4096 (![] : Fin 0 → Fin S1x4096.rank)
  bitsLt_bf16_f32 : FTy.bits .bf16 < FTy.bits .f32
  bcast_S_S4096x512 : S_.BroadcastsInDim S4096x512 (![] : Fin 0 → Fin S4096x512.rank)
  transposes_S4096x512_S512x4096_1_0 : S4096x512.Transposes [1, 0] S512x4096
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  dot_S2048x512_S512x1024_S2048x1024_1_0_0_1_n_n_wf : DotDims.WF S2048x512 S512x1024 S2048x1024 [1] [0] [0] [1] [] []
  dot_S2048x1024_S1024x16_S2048x16_1_0_0_1_n_n_wf : DotDims.WF S2048x1024 S1024x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .bf16 = 32 ∨ (Rect.block (s := S512x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .bf16 = 32 ∨ (Rect.block (s := S4096x16) S1024x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x16.size a ≤ S16384x16.size a
  hwx0_5 : ∀ i : grid0.Coords, EltTy.bits .f32 = 32 ∨ (Rect.block (s := S16384x16) S2048x16.size (cc0_transform_5 i) (hinb0_5 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf

abbrev win0_0 : Pipeline.Window sig grid0 :=
  Pipeline.Window.ofSpec (Memref.whole main_v11) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2048x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S4096x16 : Shape := ⟨2, ![4096, 16]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S16384x4096 : Shape := ⟨2, ![16384, 4096]⟩
abbrev S1x4096 : Shape := ⟨2, ![1, 4096]⟩
abbrev S16384x16 : Shape := ⟨2, ![16384, 16]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S_, .f32⟩
  | .hbm, ⟨3, _⟩ => ⟨S4096x16, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x16, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S4096x1_0 : S4096.BroadcastsInDim S4096x1 (![0] : Fin 1 → Fin S4096x1.rank)
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  transposes_S4096x1_S1x4096_1_0 : S4096x1.Transposes [1, 0] S1x4096
  bcast_S1x4096_S16384x4096_0_1 : S1x4096.BroadcastsInDim S16384x4096 (![0, 1] : Fin 2 → Fin S16384x4096.rank)
  dot_S16384x512_S4096x512_S16384x4096_1_1_0_0_n_n_wf : DotDims.WF S16384x512 S4096x512 S16384x4096 [1] [1] [0] [0] [] []
  dot_S16384x4096_S4096x16_S16384x16_1_0_0_1_n_n_wf : DotDims.WF S16384x4096 S4096x16 S16384x16 [1] [0] [0] [1] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf
def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf

class Facts : Prop extends Facts₀ where

variable [Facts]
-- ==== Proof.Spec.lean ====
/-
  The mathematics both programs compute, stated once over the argument arrays.

  With x : [16384, 512], mu : [4096, 512], a scalar g and alpha : [4096, 16], the reference computes
      out[n, o] = Σ_c exp (g · (2 · ⟨x_n, mu_c⟩ − ‖x_n‖² − ‖mu_c‖²)) · alpha[c, o]
  and the kernel computes, center tile by center tile and summed in a carried accumulator,
      Σ_c exp (⟨x_n, (2 · g) · mu_c⟩ − g · ‖x_n‖² − g · ‖mu_c‖²) · alpha[c, o].
  The two exponents are one real number when x, mu and g are finite (distributing g over the
  difference and moving 2 · g through the inner product's sum: both laws need finiteness on the
  extended reals); the sums over the centers differ only in their grouping.
-/
import Idealize.ShloMosaic.Lib.ValueIdx

noncomputable section

open scoped BigOperators

namespace Cert.RbfHead

open Idealize.ShloMosaic Idealize.ShloMosaic.ValueIdx

/-- The squared Euclidean norm of row `n` of an array with 512 columns. -/
def sq {N : Nat} (a : (⟨2, ![N, 512]⟩ : Shape).Idx → EReal) (n : Fin N) : EReal :=
  ∑ d : Fin 512, a (ix2 n d) * a (ix2 n d)

/-- The inner product of row `n` of `x` with row `c` of `mu`. -/
def dotRow (x : (⟨2, ![16384, 512]⟩ : Shape).Idx → EReal) (mu : (⟨2, ![4096, 512]⟩ : Shape).Idx → EReal)
    (n : Fin 16384) (c : Fin 4096) : EReal :=
  ∑ d : Fin 512, x (ix2 n d) * mu (ix2 c d)

/-- The reference's exponent at (n, c): `g · (two · ⟨x_n, mu_c⟩ − ‖x_n‖² − ‖mu_c‖²)`. -/
def refArg (two g : EReal) (x : (⟨2, ![16384, 512]⟩ : Shape).Idx → EReal) (mu : (⟨2, ![4096, 512]⟩ : Shape).Idx → EReal)
    (n : Fin 16384) (c : Fin 4096) : EReal :=
  g * (two * dotRow x mu n c - sq x n - sq mu c)

/-- The kernel's exponent at (n, c): `⟨x_n, (two · g) · mu_c⟩ − g · ‖x_n‖² − g · ‖mu_c‖²`. -/
def kerArg (two g : EReal) (x : (⟨2, ![16384, 512]⟩ : Shape).Idx → EReal) (mu : (⟨2, ![4096, 512]⟩ : Shape).Idx → EReal)
    (n : Fin 16384) (c : Fin 4096) : EReal :=
  (∑ d : Fin 512, x (ix2 n d) * ((two * g) * mu (ix2 c d))) - g * sq x n - g * sq mu c

/-- The result array: the kernel matrix `exp (refArg)` times `alpha`, one sum over all 4096 centers. -/
def result (two g : EReal) (x : (⟨2, ![16384, 512]⟩ : Shape).Idx → EReal) (mu : (⟨2, ![4096, 512]⟩ : Shape).Idx → EReal)
    (al : (⟨2, ![4096, 16]⟩ : Shape).Idx → EReal) : (⟨2, ![16384, 16]⟩ : Shape).Idx → EReal :=
  fun i => ∑ c : Fin 4096, Ideal.exp (refArg two g x mu (i 0) c) * al (ix2 c (i 1))

end Cert.RbfHead

end
-- ==== Proof.SpecLaws.lean ====
/-
  Three laws of the specification, on the extended reals.

  * The f32 word 0x40000000 has sign 0, exponent field 128 and fraction 0, so it denotes
    (2^23 + 0) · 2^(128 − 127 − 23) = 2, a real number.
  * For finite x, mu, g and a finite constant `two`, the kernel's exponent
        ⟨x_n, (two · g) · mu_c⟩ − g · ‖x_n‖² − g · ‖mu_c‖²
    and the reference's exponent
        g · (two · ⟨x_n, mu_c⟩ − ‖x_n‖² − ‖mu_c‖²)
    are the same real number: every entry is the coercion of a real, the coercion commutes with
    products, differences and finite sums, and in ℝ the identity is distributivity.
  * A sum over 4096 = 4 · 1024 centers is the iterated sum over 4 tiles of 1024 centers, by the
    bijection (s, cc) ↦ 1024 · s + cc.
-/
import proofs.«418627_j91164975824956_3_alg».proof.Proof.Spec
import Mathlib.Data.EReal.Basic
import Mathlib.Algebra.BigOperators.Group.Finset.Basic
import Mathlib.Algebra.BigOperators.Ring.Finset
import Mathlib.Algebra.BigOperators.Fin
import Mathlib.Logic.Equiv.Fin.Basic
import Mathlib.Tactic.Ring
import Mathlib.Tactic.NormNum

noncomputable section

open scoped BigOperators

namespace Cert.RbfHead

open Idealize.ShloMosaic Idealize.ShloMosaic.ValueIdx

/-- The f32 word 0x40000000 denotes the real number 2. -/
theorem two_val : Ideal.ofBits .f32 0x40000000#32 = ((2 : ℝ) : EReal) := by
  simp [Ideal.ofBits, Ideal.ieee, -EReal.coe_mul]
  norm_num

/-- The f32 word 0x40000000 denotes a real number (it is 2; only finiteness is used). -/
theorem two_real : ∃ r : ℝ, Ideal.ofBits .f32 0x40000000#32 = (r : EReal) :=
  ⟨2, two_val⟩

/-- The coercion of the reals into the extended reals commutes with finite sums. -/
theorem coe_real_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity of the two exponents in ℝ: the scalar `t · γ` moves out of the inner product's sum and
    `γ` distributes over the difference. -/
theorem arg_real {ι : Type*} [Fintype ι] (t γ : ℝ) (a b : ι → ℝ) :
    (∑ d, a d * ((t * γ) * b d)) - γ * (∑ d, a d * a d) - γ * (∑ d, b d * b d)
      = γ * (t * (∑ d, a d * b d) - (∑ d, a d * a d) - (∑ d, b d * b d)) := by
  have h : (∑ d, a d * ((t * γ) * b d)) = (t * γ) * ∑ d, a d * b d := by
    rw [Finset.mul_sum]
    exact Finset.sum_congr rfl (fun d _ => by ring)
  rw [h]
  ring

/-- For finite x, mu, g and a finite constant the kernel's exponent is the reference's. -/
theorem kerArg_eq_refArg (two g : EReal) (x : (⟨2, ![16384, 512]⟩ : Shape).Idx → EReal) (mu : (⟨2, ![4096, 512]⟩ : Shape).Idx → EReal)
    (n : Fin 16384) (c : Fin 4096) (h2 : ∃ r : ℝ, two = (r : EReal)) (hg : ∃ r : ℝ, g = (r : EReal))
    (hx : ∀ i, ∃ r : ℝ, x i = (r : EReal)) (hmu : ∀ i, ∃ r : ℝ, mu i = (r : EReal)) :
    kerArg two g x mu n c = refArg two g x mu n c := by
  obtain ⟨t, rfl⟩ := h2
  obtain ⟨γ, rfl⟩ := hg
  choose xr hxr using hx
  choose mr hmr using hmu
  obtain rfl : x = fun i => (xr i : EReal) := funext hxr
  obtain rfl : mu = fun i => (mr i : EReal) := funext hmr
  unfold kerArg refArg dotRow sq
  simp only [← EReal.coe_mul, ← coe_real_sum, ← EReal.coe_sub]
  exact congrArg _ (arg_real t γ (fun d => xr (ix2 n d)) (fun d => mr (ix2 c d)))

/-- A sum over the 4096 centers is the sum over the 4 center tiles of the sums over each tile's 1024 centers. -/
theorem sum_center_tiles (f : Fin 4096 → EReal) :
    ∑ c : Fin 4096, f c = ∑ s : Fin 4, ∑ cc : Fin 1024, f ⟨1024 * s.val + cc.val, by have := s.isLt; have := cc.isLt; omega⟩ := by
  rw [← Fintype.sum_prod_type' (f := fun (s : Fin 4) (cc : Fin 1024) =>
    f ⟨1024 * s.val + cc.val, by have := s.isLt; have := cc.isLt; omega⟩)]
  rw [← Equiv.sum_comp (finProdFinEquiv (m := 4) (n := 1024)) f]
  refine Fintype.sum_congr _ _ (fun p => congrArg f (Fin.ext ?_))
  simp only [finProdFinEquiv_apply_val]
  omega

end Cert.RbfHead

end
-- ==== Proof.Pieces.lean ====
/-
  What one run of the kernel body leaves behind, as values.

  The body keeps a [2048, 16] accumulator in a scratch buffer that survives from one grid point to the
  next. At the first center tile of a row tile it stores zeros into the accumulator, reads them back and
  stores `0 + K·alpha_tile`; at a middle tile it stores `acc + K·alpha_tile` over the accumulator it
  found; at the last tile it does the same and then copies the accumulator, read back, into the output
  block. Every load and store is of a whole buffer, so each of these is the body's one arithmetic term
  (the payload) of the blocks it loaded.
-/
import proofs.«418627_j91164975824956_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

/-- A middle center tile: the accumulator ends at the payload of the loaded blocks over what it held. -/
theorem scratch_B (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S2048x16 .f32) (harg7 : arg7.IsWhole) (arg8 : Memref sig .tc .vmem S2048x16 .f32) (harg8 : arg8.IsWhole) (hc0 : ¬cond0_0 i) (hc1 : ¬cond0_1 i) (x0 : Vec F S2048x512 .bf16) (x1 : Vec F S512x1024 .bf16) (x2 : Vec F S2048x1 .f32) (x3 : Vec F S1x1024 .f32) (x4 : Vec F S1024x16 .bf16) (xs0 : Vec F S2048x16 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S2048x512) hz, View.ld_unit_zero (S := S512x1024) hz, View.ld_unit_zero (S := S2048x1) hz, View.ld_unit_zero (S := S1x1024) hz, View.ld_unit_zero (S := S1024x16) hz, View.ld_unit_zero (S := S2048x16) hz]

/-- The first center tile: zeros are stored, read back, and the accumulator ends at the payload over zeros. -/
theorem scratch_A (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S2048x16 .f32) (harg7 : arg7.IsWhole) (arg8 : Memref sig .tc .vmem S2048x16 .f32) (harg8 : arg8.IsWhole) (hc0 : cond0_0 i) (hc1 : ¬cond0_1 i) (x0 : Vec F S2048x512 .bf16) (x1 : Vec F S512x1024 .bf16) (x2 : Vec F S2048x1 .f32) (x3 : Vec F S1x1024 .f32) (x4 : Vec F S1024x16 .bf16) :
    sout0_A_0 c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x16) hz]
  simp only [View.readAt_eq_ld, harg2.read_unread, harg3.read_unread, harg4.read_unread, harg5.read_unread, harg6.read_unread, harg8.read_unread, View.ld_unit_zero (S := S2048x512) hz, View.ld_unit_zero (S := S512x1024) hz, View.ld_unit_zero (S := S2048x1) hz, View.ld_unit_zero (S := S1x1024) hz, View.ld_unit_zero (S := S1024x16) hz, View.ld_unit_zero (S := S2048x16) hz, View.readCov_unit_zero (S := S2048x16) _ hz]

/-- The last center tile: the accumulator ends at the payload over what it held, -/
theorem scratch_C (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S2048x16 .f32) (harg7 : arg7.IsWhole) (arg8 : Memref sig .tc .vmem S2048x16 .f32) (harg8 : arg8.IsWhole) (hc0 : ¬cond0_0 i) (hc1 : cond0_1 i) (x0 : Vec F S2048x512 .bf16) (x1 : Vec F S512x1024 .bf16) (x2 : Vec F S2048x1 .f32) (x3 : Vec F S1x1024 .f32) (x4 : Vec F S1024x16 .bf16) (xs0 : Vec F S2048x16 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S2048x512) hz, View.ld_unit_zero (S := S512x1024) hz, View.ld_unit_zero (S := S2048x1) hz, View.ld_unit_zero (S := S1x1024) hz, View.ld_unit_zero (S := S1024x16) hz, View.ld_unit_zero (S := S2048x16) hz]

/-- and the output block is that accumulator, read back after the store. -/
theorem out_C (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S2048x16 .f32) (harg7 : arg7.IsWhole) (arg8 : Memref sig .tc .vmem S2048x16 .f32) (harg8 : arg8.IsWhole) (hc0 : ¬cond0_0 i) (hc1 : cond0_1 i) (x0 : Vec F S2048x512 .bf16) (x1 : Vec F S512x1024 .bf16) (x2 : Vec F S2048x1 .f32) (x3 : Vec F S1x1024 .f32) (x4 : Vec F S1024x16 .bf16) (xs0 : Vec F S2048x16 .f32) :
    out0_C_5 c i arg2 harg2 arg3 harg3 arg4 harg4 arg5 harg5 arg6 harg6 arg7 harg7 arg8 harg8 hc0 hc1 x0 x1 x2 x3 x4 xs0 = k0_pay2 x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S2048x16) _ hz]
  simp only [View.readAt_eq_ld, harg2.read_unread, harg3.read_unread, harg4.read_unread, harg5.read_unread, harg6.read_unread, harg8.read_unread, View.ld_unit_zero (S := S2048x512) hz, View.ld_unit_zero (S := S512x1024) hz, View.ld_unit_zero (S := S2048x1) hz, View.ld_unit_zero (S := S1x1024) hz, View.ld_unit_zero (S := S1024x16) hz, View.ld_unit_zero (S := S2048x16) hz]

end Cert.KernelIdeal.Pieces

end
-- ==== Proof.Payload.lean ====
/-
  The body's arithmetic at one element, over the extended reals.

  With the loaded blocks X : [2048, 512], W : [512, 1024], a : [2048, 1], b : [1, 1024], A : [1024, 16]
  and the accumulator acc : [2048, 16], the body stores

      acc[r, o] + Σ_cc exp ((Σ_d X[r, d] · W[d, cc]) − a[r, 0] − b[0, cc]) · A[cc, o].

  Both matrix products start from the zero accumulator and so are plain sums; a change of float
  format is the identity; the two broadcasts spread a column and a row over the [2048, 1024] tile.
-/
import proofs.«418627_j91164975824956_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ### The first product, [2048, 512] × [512, 1024]: where its operands are read -/

theorem lhs1_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs1_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs1_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs1_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- Element (r, cc) of the first product is the inner product of row r of X with column cc of W. -/
theorem matmul1_apply (X : FVec Ideal S2048x512 .bf16) (W : FVec Ideal S512x1024 .bf16) (r : Fin 2048) (cc : Fin 1024) :
    matmul dot_S2048x512_S512x1024_S2048x1024_1_0_0_1_n_n none X W (constant S2048x1024 .f32 0x00000000#32) (ix2 r cc)
      = ∑ d : Fin 512, X (ix2 r d) * W (ix2 d cc) := by
  simp only [matmul]
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 r cc) ((ValueIdx.contrEquiv1 dot_S2048x512_S512x1024_S2048x1024_1_0_0_1_n_n 512 rfl rfl).symm k) = ix2 r k := funext fun a => Fin.ext (by
    match a with
    | ⟨0, _⟩ => exact lhs1_0 _ _
    | ⟨1, _⟩ => exact (lhs1_1 _ _).trans hk)
  have er : dot_S2048x512_S512x1024_S2048x1024_1_0_0_1_n_n.rhsIdx (ix2 r cc) ((ValueIdx.contrEquiv1 dot_S2048x512_S512x1024_S2048x1024_1_0_0_1_n_n 512 rfl rfl).symm k) = ix2 k cc := funext fun a => Fin.ext (by
    match a with
    | ⟨0, _⟩ => exact (rhs1_0 _ _).trans hk
    | ⟨1, _⟩ => exact rhs1_1 _ _)
  rw [el, er]

/-! ### The second product, [2048, 1024] × [1024, 16] -/

theorem lhs2_0 (i : S2048x16.Idx) (q : dot_S2048x1024_S1024x16_S2048x16_1_0_0_1_n_n.contr.Idx) :
    (dot_S2048x1024_S1024x16_S2048x16_1_0_0_1_n_n.lhsIdx i q 0).val = (i 0).val := by
  unfold DotDims.lhsIdx
  rw [dif_neg (show ¬(0 : Fin S2048x1024.rank) ∈ dot_S2048x1024_S1024x16_S2048x16_1_0_0_1_n_n.lhsBatch by decide), dif_pos (show (0 : Fin S2048x1024.rank) ∈ dot_S2048x1024_S1024x16_S2048x16_1_0_0_1_n_n.lhsNonContracting by decide)]
  rfl
theorem lhs2_1 (i : S2048x16.Idx) (q : dot_S2048x1024_S1024x16_S2048x16_1_0_0_1_n_n.contr.Idx) :
    (dot_S2048x1024_S1024x16_S2048x16_1_0_0_1_n_n.lhsIdx i q 1).val = (q ⟨0, by decide⟩).val :=
  dot_S2048x1024_S1024x16_S2048x16_1_0_0_1_n_n.lhsIdx_val_of_single rfl i q
theorem rhs2_0 (i : S2048x16.Idx) (q : dot_S2048x1024_S1024x16_S2048x16_1_0_0_1_n_n.contr.Idx) :
    (dot_S2048x1024_S1024x16_S2048x16_1_0_0_1_n_n.rhsIdx i q 0).val = (q ⟨0, by decide⟩).val :=
  dot_S2048x1024_S1024x16_S2048x16_1_0_0_1_n_n.rhsIdx_val_of_single rfl i q
theorem rhs2_1 (i : S2048x16.Idx) (q : dot_S2048x1024_S1024x16_S2048x16_1_0_0_1_n_n.contr.Idx) :
    (dot_S2048x1024_S1024x16_S2048x16_1_0_0_1_n_n.rhsIdx i q 1).val = (i 1).val := by
  unfold DotDims.rhsIdx
  rw [dif_neg (show ¬(1 : Fin S1024x16.rank) ∈ dot_S2048x1024_S1024x16_S2048x16_1_0_0_1_n_n.rhsBatch by decide), dif_pos (show (1 : Fin S1024x16.rank) ∈ dot_S2048x1024_S1024x16_S2048x16_1_0_0_1_n_n.rhsNonContracting by decide)]
  rfl

/-- Element (r, o) of the second product is the inner product of row r of K with column o of A. -/
theorem matmul2_apply (K : FVec Ideal S2048x1024 .bf16) (A : FVec Ideal S1024x16 .bf16) (r : Fin 2048) (o : Fin 16) :
    matmul dot_S2048x1024_S1024x16_S2048x16_1_0_0_1_n_n none K A (constant S2048x16 .f32 0x00000000#32) (ix2 r o)
      = ∑ cc : Fin 1024, K (ix2 r cc) * A (ix2 cc o) := by
  simp only [matmul]
  rw [Ideal.matmul_constant_zero_apply, ← Equiv.sum_comp (ValueIdx.contrEquiv1 dot_S2048x1024_S1024x16_S2048x16_1_0_0_1_n_n 1024 rfl rfl).symm]
  refine Finset.sum_congr rfl fun k _ => ?_
  have hk := ValueIdx.contrEquiv1_symm_val dot_S2048x1024_S1024x16_S2048x16_1_0_0_1_n_n 1024 rfl rfl k
  have el : dot_S2048x1024_S1024x16_S2048x16_1_0_0_1_n_n.lhsIdx (ix2 r o) ((ValueIdx.contrEquiv1 dot_S2048x1024_S1024x16_S2048x16_1_0_0_1_n_n 1024 rfl rfl).symm k) = ix2 r k := funext fun a => Fin.ext (by
    match a with
    | ⟨0, _⟩ => exact lhs2_0 _ _
    | ⟨1, _⟩ => exact (lhs2_1 _ _).trans hk)
  have er : dot_S2048x1024_S1024x16_S2048x16_1_0_0_1_n_n.rhsIdx (ix2 r o) ((ValueIdx.contrEquiv1 dot_S2048x1024_S1024x16_S2048x16_1_0_0_1_n_n 1024 rfl rfl).symm k) = ix2 k o := funext fun a => Fin.ext (by
    match a with
    | ⟨0, _⟩ => exact (rhs2_0 _ _).trans hk
    | ⟨1, _⟩ => exact rhs2_1 _ _)
  rw [el, er]

/-! ### The two broadcasts over the [2048, 1024] tile -/

/-- A column [2048, 1] spread over [2048, 1024]: element (r, cc) is the column at r. -/
theorem column_spread (a : FVec Ideal S2048x1 .f32) (r : Fin 2048) (cc : Fin 1024) :
    broadcastTo S2048x1024 a broadcasts_S2048x1_S2048x1024 (ix2 r cc) = a (ix2 r 0) :=
  broadcastTo_apply a broadcasts_S2048x1_S2048x1024 (ix2 r cc) (ix2 r 0) (fun d => match d with
    | ⟨0, _⟩ => by show r.val = if (2048 : Nat) = 1 then 0 else r.val; rw [if_neg (by decide)]
    | ⟨1, _⟩ => by show 0 = if (1 : Nat) = 1 then 0 else cc.val; rw [if_pos rfl])

/-- A row [1, 1024] spread over [2048, 1024]: element (r, cc) is the row at cc. -/
theorem row_spread (b : FVec Ideal S1x1024 .f32) (r : Fin 2048) (cc : Fin 1024) :
    broadcastTo S2048x1024 b broadcasts_S1x1024_S2048x1024 (ix2 r cc) = b (ix2 0 cc) :=
  broadcastTo_apply b broadcasts_S1x1024_S2048x1024 (ix2 r cc) (ix2 0 cc) (fun d => match d with
    | ⟨0, _⟩ => by show 0 = if (1 : Nat) = 1 then 0 else r.val; rw [if_pos rfl]
    | ⟨1, _⟩ => by show cc.val = if (1024 : Nat) = 1 then 0 else cc.val; rw [if_neg (by decide)])

/-! ### The payload at an element -/

/-- What the body stores into the accumulator, at element (r, o). -/
theorem pay2_apply (X : Vec Ideal S2048x512 .bf16) (W : Vec Ideal S512x1024 .bf16) (a : Vec Ideal S2048x1 .f32)
    (b : Vec Ideal S1x1024 .f32) (A : Vec Ideal S1024x16 .bf16) (acc : Vec Ideal S2048x16 .f32) (r : Fin 2048) (o : Fin 16) :
    k0_pay2 (F := Ideal) X W a b A acc (ix2 r o)
      = acc (ix2 r o) + ∑ cc : Fin 1024,
          Ideal.exp ((∑ d : Fin 512, X (ix2 r d) * W (ix2 d cc)) - a (ix2 r 0) - b (ix2 0 cc)) * A (ix2 cc o) := by
  unfold k0_pay2
  simp only [shapeCast_self]
  rw [addf_apply, matmul2_apply]
  refine congrArg (acc (ix2 r o) + ·) (Finset.sum_congr rfl fun cc _ => ?_)
  rw [truncf_apply]
  simp only [exp, Ideal.exp_def]
  rw [subf_apply, subf_apply, matmul1_apply, column_spread, row_spread]

/-- The zero block the first center tile stores: every element is 0. -/
theorem pay1_apply (j : S2048x16.Idx) : k0_pay1 (F := Ideal) j = 0 := by
  unfold k0_pay1
  simp only [shapeCast_self]
  show Ideal.ofBits .f32 0x00000000#32 = 0
  exact Ideal.ofBits_zero_f32

end Cert.KernelIdeal.Payload

end
-- ==== Proof.Prefix.lean ====
/-
  The arrays the kernel's region finds, read at an element (over the extended reals).

  Before its one pallas_call the kernel's @main computes, from x : [16384, 512], mu : [4096, 512],
  the scalar g and alpha : [4096, 16]:
    the first operand      x itself (a change of float format is the identity);
    the second operand     W[d, c] = (2 · g) · mu[c, d]   (scale, transpose, format change);
    the third operand      a[n, 0] = g · (0 + Σ_d x[n, d]²);
    the fourth operand     b[0, c] = g · (0 + Σ_d mu[c, d]²)   (the column of squared norms reshaped to a row);
    the fifth operand      alpha itself.
-/
import proofs.«418627_j91164975824956_3_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

namespace Cert.KernelIdeal.Prefix

open Cert.KernelIdeal Cert.KernelIdeal.Gen

variable (m : (ℓ : Loc nD τ sig) → Buf (Elt Ideal) ℓ)

/-! ### The argument arrays and the five operands, each named at its literal type -/

abbrev xarr (c : Dev nD) : FVec Ideal S16384x512 .f32 := m ((c : Thread nD τ).loc main_arg0)
abbrev muarr (c : Dev nD) : FVec Ideal S4096x512 .f32 := m ((c : Thread nD τ).loc main_arg1)
abbrev garr (c : Dev nD) : FVec Ideal S_ .f32 := m ((c : Thread nD τ).loc main_arg2)
abbrev alarr (c : Dev nD) : FVec Ideal S4096x16 .f32 := m ((c : Thread nD τ).loc main_arg3)

abbrev xop (c : Dev nD) : FVec Ideal S16384x512 .bf16 := V m c main_v11
abbrev wop (c : Dev nD) : FVec Ideal S512x4096 .bf16 := V m c main_v16
abbrev aop (c : Dev nD) : FVec Ideal S16384x1 .f32 := V m c main_v8
abbrev bop (c : Dev nD) : FVec Ideal S1x4096 .f32 := V m c main_v10
abbrev alop (c : Dev nD) : FVec Ideal S4096x16 .bf16 := V m c main_v17

/-- The first operand is x. -/
theorem xop_apply (c : Dev nD) (i : S16384x512.Idx) : xop m c i = xarr m c i := by
  have e : xop m c = truncf .bf16 (xarr m c) bitsLt_bf16_f32 := by
    show V m c main_v11 = _
    dsimp only [V, hostOps0]; after_results; try rfl
  rw [e]; rfl

/-- The fifth operand is alpha. -/
theorem alop_apply (c : Dev nD) (i : S4096x16.Idx) : alop m c i = alarr m c i := by
  have e : alop m c = truncf .bf16 (alarr m c) bitsLt_bf16_f32 := by
    show V m c main_v17 = _
    dsimp only [V, hostOps0]; after_results; try rfl
  rw [e]; rfl

/-- The second operand at (d, k) is (2 · g) · mu[k, d]. -/
theorem wop_apply (c : Dev nD) (d : Fin 512) (k : Fin 4096) :
    wop m c (ix2 d k) = (Ideal.ofBits .f32 0x40000000#32 * garr m c ix0) * muarr m c (ix2 k d) := by
  have e : wop m c
      = truncf .bf16 (transpose S512x4096 [1, 0] (mulf (broadcastInDim S4096x512 ![] bcast_S_S4096x512
          (mulf (constant (F := Ideal) S_ .f32 0x40000000#32) (garr m c))) (muarr m c))
          transposes_S4096x512_S512x4096_1_0) bitsLt_bf16_f32 := by
    show V m c main_v16 = _
    dsimp only [V, hostOps0]; after_results; try rfl
  rw [e, truncf_apply,
    transpose_apply [1, 0] _ transposes_S4096x512_S512x4096_1_0 (ix2 d k) (ix2 k d) (fun b => match b with
      | ⟨0, _⟩ => rfl
      | ⟨1, _⟩ => rfl),
    mulf_apply, broadcastInDim_apply _ bcast_S_S4096x512 _ (ix2 k d) ix0 (fun a => a.elim0), mulf_apply, constant_apply]

/-- The third operand at (n, 0) is g · (0 + Σ_d x[n, d]²). -/
theorem aop_apply (c : Dev nD) (n : Fin 16384) :
    aop m c (ix2 n 0)
      = garr m c ix0 * (Ideal.ofBits .f32 0x00000000#32 + ∑ d : Fin 512, xarr m c (ix2 n d) * xarr m c (ix2 n d)) := by
  have e : aop m c
      = mulf (broadcastInDim S16384x1 ![] bcast_S_S16384x1 (garr m c))
          (broadcastInDim S16384x1 ![0] bcast_S16384_S16384x1_0
            (Host.reduceAdd (mulf (xarr m c) (xarr m c))
              (constant (F := Ideal) S_ .f32 0x00000000#32) reducesTo_S16384x512_S16384_d1 h_S_)) := by
    show V m c main_v8 = _
    dsimp only [V, hostOps0]; after_results; try rfl
  rw [e, mulf_apply, broadcastInDim_apply _ bcast_S_S16384x1 _ (ix2 n 0) ix0 (fun a => a.elim0),
    broadcastInDim_apply _ bcast_S16384_S16384x1_0 _ (ix2 n 0) (ix1 n) (fun a => match a with
      | ⟨0, _⟩ => by show n.val = if (16384 : Nat) = 1 then 0 else n.val; rw [if_neg (by decide)])]
  simp only [Host.reduceAdd, Ideal.hostReduceAdd_def]
  rw [Ideal.hostReduceAdd_single reducesTo_S16384x512_S16384_d1 (by decide)]
  refine congrArg (_ * ·) (congrArg (_ + ·) (Finset.sum_congr rfl fun k _ => ?_))
  exact congrArg (mulf (xarr m c) (xarr m c)) (funext fun a => Fin.ext (by match a with | ⟨0, _⟩ => rfl | ⟨1, _⟩ => rfl))

/-- The fourth operand at (0, k) is g · (0 + Σ_d mu[k, d]²). -/
theorem bop_apply (c : Dev nD) (k : Fin 4096) :
    bop m c (ix2 0 k)
      = garr m c ix0 * (Ideal.ofBits .f32 0x00000000#32 + ∑ d : Fin 512, muarr m c (ix2 k d) * muarr m c (ix2 k d)) := by
  have e : bop m c
      = mulf (broadcastInDim S1x4096 ![] bcast_S_S1x4096 (garr m c))
          (shapeCast S1x4096 (broadcastInDim S4096x1 ![0] bcast_S4096_S4096x1_0
            (Host.reduceAdd (mulf (muarr m c) (muarr m c))
              (constant (F := Ideal) S_ .f32 0x00000000#32) reducesTo_S4096x512_S4096_d1 h_S_)) shapeCasts_S4096x1_S1x4096) := by
    show V m c main_v10 = _
    dsimp only [V, hostOps0]; after_results; try rfl
  rw [e, mulf_apply, broadcastInDim_apply _ bcast_S_S1x4096 _ (ix2 0 k) ix0 (fun a => a.elim0),
    shapeCast_apply _ shapeCasts_S4096x1_S1x4096 (ix2 0 k) (ix2 k 0) (by
      rw [Shape.rowMajor_val_two, Shape.rowMajor_val_two]; show k.val * 1 + 0 = 0 * 4096 + k.val; omega),
    broadcastInDim_apply _ bcast_S4096_S4096x1_0 _ (ix2 k 0) (ix1 k) (fun a => match a with
      | ⟨0, _⟩ => by show k.val = if (4096 : Nat) = 1 then 0 else k.val; rw [if_neg (by decide)])]
  simp only [Host.reduceAdd, Ideal.hostReduceAdd_def]
  rw [Ideal.hostReduceAdd_single reducesTo_S4096x512_S4096_d1 (by decide)]
  refine congrArg (_ * ·) (congrArg (_ + ·) (Finset.sum_congr rfl fun j _ => ?_))
  exact congrArg (mulf (muarr m c) (muarr m c)) (funext fun a => Fin.ext (by match a with | ⟨0, _⟩ => rfl | ⟨1, _⟩ => rfl))

end Cert.KernelIdeal.Prefix

end
-- ==== Proof.Fold.lean ====
/-
  What the kernel's result array holds after the run.

  The grid is 8 row tiles × 4 center tiles, the center tile innermost: point t is row tile t / 4 and
  center tile t % 4. Over the four points of one row tile the accumulator is reset to 0 and then gains,
  at each point, that center tile's contribution
      part t [r, o] = Σ_cc exp (⟨x_n, (2 · g) · mu_k⟩ − g · ‖x_n‖² − g · ‖mu_k‖²) · alpha[k, o],
  with n = 2048 · (t / 4) + r and k = 1024 · (t % 4) + cc; the last of the four points copies the
  accumulator to the output block of row tile t / 4, which is written back there. So the result at
  (n, o) is the sum over all four center tiles, that is over all 4096 centers; and for finite x, mu, g
  each exponent is the reference's g · (2 · ⟨x_n, mu_k⟩ − ‖x_n‖² − ‖mu_k‖²).
-/
import proofs.«418627_j91164975824956_3_alg».proof.Proof.Gen.KernelIdeal.Value
import proofs.«418627_j91164975824956_3_alg».proof.Proof.Spec
import proofs.«418627_j91164975824956_3_alg».proof.Proof.SpecLaws
import proofs.«418627_j91164975824956_3_alg».proof.Proof.Pieces
import proofs.«418627_j91164975824956_3_alg».proof.Proof.Payload
import proofs.«418627_j91164975824956_3_alg».proof.Proof.Prefix
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RbfValue

open Cert.KernelIdeal Cert.KernelIdeal.Gen Cert.KernelIdeal.Prefix Cert.RbfHead

variable (m : (ℓ : Loc nD τ sig) → Buf (Elt Ideal) ℓ) (ρ : Dev nD → PrngReg)

/-! ### The blocks a point loads, each named at its literal type -/

abbrev xblk (c : Dev nD) (t : Fin cfg0.N) : Vec Ideal S2048x512 .bf16 := iblk m c 0 t
abbrev wblk (c : Dev nD) (t : Fin cfg0.N) : Vec Ideal S512x1024 .bf16 := iblk m c 1 t
abbrev ablk (c : Dev nD) (t : Fin cfg0.N) : Vec Ideal S2048x1 .f32 := iblk m c 2 t
abbrev bblk (c : Dev nD) (t : Fin cfg0.N) : Vec Ideal S1x1024 .f32 := iblk m c 3 t
abbrev alblk (c : Dev nD) (t : Fin cfg0.N) : Vec Ideal S1024x16 .bf16 := iblk m c 4 t

/-- Where each window's block sits at point t: row tile t / 4, center tile t % 4 (decided over the 32 points). -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val % 4 ∧ win0_4.index t (1 : Fin 2) = 0
    ∧ win0_5.index t (0 : Fin 2) = t.val / 4 ∧ win0_5.index t (1 : Fin 2) = 0 :=
  (by decide +kernel : ∀ t : Fin grid0.N, _)

/-- Row r of the x block at point t is row 2048 · (t / 4) + r of the first operand. -/
theorem xblk_apply (c : Dev nD) (t : Fin cfg0.N) (r : Fin 2048) (d : Fin 512) (n : Fin 16384)
    (hn : n.val = 2048 * (t.val / 4) + r.val) : xblk m c t (ix2 r d) = xop m c (ix2 n d) := by
  obtain ⟨e0, e1, -⟩ := idx_facts t
  show V m c main_v11 (((cfg0.win 0).blk t).view.emb (ix2 r d)) = V m c main_v11 (ix2 n d)
  refine congrArg (V m c main_v11) (funext fun a => Fin.ext ?_)
  match a with
  | ⟨0, _⟩ => show win0_0.index t (0 : Fin 2) * 2048 + 1 * r.val = n.val; omega
  | ⟨1, _⟩ => show win0_0.index t (1 : Fin 2) * 512 + 1 * d.val = d.val; omega

/-- Column cc of the W block at point t is column 1024 · (t % 4) + cc of the second operand. -/
theorem wblk_apply (c : Dev nD) (t : Fin cfg0.N) (d : Fin 512) (cc : Fin 1024) (k : Fin 4096)
    (hk : k.val = 1024 * (t.val % 4) + cc.val) : wblk m c t (ix2 d cc) = wop m c (ix2 d k) := by
  obtain ⟨-, -, e0, e1, -⟩ := idx_facts t
  show V m c main_v16 (((cfg0.win 1).blk t).view.emb (ix2 d cc)) = V m c main_v16 (ix2 d k)
  refine congrArg (V m c main_v16) (funext fun a => Fin.ext ?_)
  match a with
  | ⟨0, _⟩ => show win0_1.index t (0 : Fin 2) * 512 + 1 * d.val = d.val; omega
  | ⟨1, _⟩ => show win0_1.index t (1 : Fin 2) * 1024 + 1 * cc.val = k.val; omega

theorem ablk_apply (c : Dev nD) (t : Fin cfg0.N) (r : Fin 2048) (n : Fin 16384)
    (hn : n.val = 2048 * (t.val / 4) + r.val) : ablk m c t (ix2 r 0) = aop m c (ix2 n 0) := by
  obtain ⟨-, -, -, -, e0, e1, -⟩ := idx_facts t
  show V m c main_v8 (((cfg0.win 2).blk t).view.emb (ix2 r 0)) = V m c main_v8 (ix2 n 0)
  refine congrArg (V m c main_v8) (funext fun a => Fin.ext ?_)
  match a with
  | ⟨0, _⟩ => show win0_2.index t (0 : Fin 2) * 2048 + 1 * r.val = n.val; omega
  | ⟨1, _⟩ => show win0_2.index t (1 : Fin 2) * 1 + 1 * 0 = 0; omega

theorem bblk_apply (c : Dev nD) (t : Fin cfg0.N) (cc : Fin 1024) (k : Fin 4096)
    (hk : k.val = 1024 * (t.val % 4) + cc.val) : bblk m c t (ix2 0 cc) = bop m c (ix2 0 k) := by
  obtain ⟨-, -, -, -, -, -, e0, e1, -⟩ := idx_facts t
  show V m c main_v10 (((cfg0.win 3).blk t).view.emb (ix2 0 cc)) = V m c main_v10 (ix2 0 k)
  refine congrArg (V m c main_v10) (funext fun a => Fin.ext ?_)
  match a with
  | ⟨0, _⟩ => show win0_3.index t (0 : Fin 2) * 1 + 1 * 0 = 0; omega
  | ⟨1, _⟩ => show win0_3.index t (1 : Fin 2) * 1024 + 1 * cc.val = k.val; omega

theorem alblk_apply (c : Dev nD) (t : Fin cfg0.N) (cc : Fin 1024) (o : Fin 16) (k : Fin 4096)
    (hk : k.val = 1024 * (t.val % 4) + cc.val) : alblk m c t (ix2 cc o) = alop m c (ix2 k o) := by
  obtain ⟨-, -, -, -, -, -, -, -, e0, e1, -⟩ := idx_facts t
  show V m c main_v17 (((cfg0.win 4).blk t).view.emb (ix2 cc o)) = V m c main_v17 (ix2 k o)
  refine congrArg (V m c main_v17) (funext fun a => Fin.ext ?_)
  match a with
  | ⟨0, _⟩ => show win0_4.index t (0 : Fin 2) * 1024 + 1 * cc.val = k.val; omega
  | ⟨1, _⟩ => show win0_4.index t (1 : Fin 2) * 16 + 1 * o.val = o.val; omega

/-! ### One center tile's contribution, and the accumulator as a sum of contributions -/

/-- What the body at point t adds to the accumulator: the [2048, 1024] tile of the kernel matrix times
    the [1024, 16] tile of alpha. -/
def part (c : Dev nD) (t : Fin cfg0.N) : Vec Ideal S2048x16 .f32 := fun j =>
  ∑ cc : Fin 1024, Ideal.exp ((∑ d : Fin 512, xblk m c t (ix2 (j 0) d) * wblk m c t (ix2 d cc))
      - ablk m c t (ix2 (j 0) 0) - bblk m c t (ix2 0 cc)) * alblk m c t (ix2 cc (j 1))

/-- The same, indexed by the point's number (0 past the grid, where it is never read). -/
def addend (c : Dev nD) (n : ℕ) : S2048x16.Idx → EReal :=
  if h : n < cfg0.N then part m c ⟨n, h⟩ else fun _ => 0

theorem addend_of_lt (c : Dev nD) (n : ℕ) (h : n < cfg0.N) : addend m c n = part m c ⟨n, h⟩ := dif_pos h

/-- The body's stored value at an element, in these words: what the accumulator held plus the point's contribution. -/
theorem pay_eq (c : Dev nD) (t : Fin cfg0.N) (acc : Vec Ideal S2048x16 .f32) (j : S2048x16.Idx) :
    k0_pay2 (F := Ideal) (xblk m c t) (wblk m c t) (ablk m c t) (bblk m c t) (alblk m c t) acc j = acc j + part m c t j := by
  obtain ⟨r, o, rfl⟩ : ∃ (r : Fin 2048) (o : Fin 16), j = ix2 r o := ⟨j 0, j 1, eq_ix2 j⟩
  exact Payload.pay2_apply (xblk m c t) (wblk m c t) (ablk m c t) (bblk m c t) (alblk m c t) acc r o

/-- At the first point of a row tile the accumulator ends at 0 plus that point's contribution, whatever it held. -/
theorem scAt_reset (c : Dev nD) (n : ℕ) (h : n < cfg0.N) (h0 : n % 4 = 0) (acc : Vec Ideal S2048x16 .f32) (j : S2048x16.Idx) :
    Value.scAt0_0 m c n h acc j = 0 + addend m c n j := by
  have h1 : ¬n % 4 = 3 := by omega
  unfold Value.scAt0_0
  rw [dif_pos h0, dif_neg h1, Pieces.scratch_A, addend_of_lt m c n h]
  refine (pay_eq m c ⟨n, h⟩ _ j).trans ?_
  rw [Payload.pay1_apply]

/-- At every other point it ends at what it held plus that point's contribution. -/
theorem scAt_step (c : Dev nD) (n : ℕ) (h : n < cfg0.N) (h0 : ¬n % 4 = 0) (acc : Vec Ideal S2048x16 .f32) (j : S2048x16.Idx) :
    Value.scAt0_0 m c n h acc j = acc j + addend m c n j := by
  unfold Value.scAt0_0
  rw [dif_neg h0, addend_of_lt m c n h]
  by_cases h1 : n % 4 = 3
  · rw [dif_pos h1, Pieces.scratch_C]
    exact pay_eq m c ⟨n, h⟩ acc j
  · rw [dif_neg h1, Pieces.scratch_B]
    exact pay_eq m c ⟨n, h⟩ acc j

/-- So after point t the accumulator holds the contributions of the points of t's row tile up to t. -/
theorem scratch_after (c : Dev nD) (t : Fin cfg0.N) (j : S2048x16.Idx) :
    (outsAt0 m c t.val t.isLt).2 j = 0 + ∑ s ∈ Finset.range (t.val % 4 + 1), addend m c (4 * (t.val / 4) + s) j := by
  rw [Value.soutsAt0_0_eq m c t]
  exact Pipeline.accAt_add_apply _ _ (fun _ => (0 : EReal)) (addend m c) (4 * (t.val / 4)) 3
    (fun h i => scAt_reset m c _ h (by omega) _ i)
    (fun n h acc i hb he => scAt_step m c n h (by omega) acc i)
    (t.val % 4) (by omega) _ j

/-- At the last point of a row tile the output block is the accumulator. -/
theorem out_after (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  rw [Pieces.out_C, Pieces.scratch_C]

/-! ### A point's contribution in terms of the argument arrays -/

/-- Center cc of center tile s. -/
def center (s : ℕ) (hs : s < 4) (cc : Fin 1024) : Fin 4096 := ⟨1024 * s + cc.val, by have := cc.isLt; omega⟩

/-- The contribution of point t at (r, o), over the argument arrays: row n = 2048 · (t / 4) + r of x against the
    1024 centers of tile t % 4, with the kernel's exponent. -/
theorem part_apply (c : Dev nD) (t : Fin cfg0.N) (r : Fin 2048) (o : Fin 16) (n : Fin 16384)
    (hn : n.val = 2048 * (t.val / 4) + r.val) :
    part m c t (ix2 r o)
      = ∑ cc : Fin 1024, Ideal.exp (kerArg (Ideal.ofBits .f32 0x40000000#32) (garr m c ix0) (xarr m c) (muarr m c) n
            (center (t.val % 4) (Nat.mod_lt _ (by decide)) cc))
          * alarr m c (ix2 (center (t.val % 4) (Nat.mod_lt _ (by decide)) cc) o) := by
  show (∑ cc : Fin 1024, Ideal.exp ((∑ d : Fin 512, xblk m c t (ix2 r d) * wblk m c t (ix2 d cc))
      - ablk m c t (ix2 r 0) - bblk m c t (ix2 0 cc)) * alblk m c t (ix2 cc o)) = _
  refine Finset.sum_congr rfl fun cc _ => ?_
  have hs : (∑ d : Fin 512, xblk m c t (ix2 r d) * wblk m c t (ix2 d cc))
      = ∑ d : Fin 512, xarr m c (ix2 n d) * ((Ideal.ofBits .f32 0x40000000#32 * garr m c ix0)
          * muarr m c (ix2 (center (t.val % 4) (Nat.mod_lt _ (by decide)) cc) d)) :=
    Finset.sum_congr rfl fun d _ => by
      rw [xblk_apply m c t r d n hn, wblk_apply m c t d cc (center (t.val % 4) (Nat.mod_lt _ (by decide)) cc) rfl,
        xop_apply, wop_apply]
  rw [hs, ablk_apply m c t r n hn, bblk_apply m c t cc (center (t.val % 4) (Nat.mod_lt _ (by decide)) cc) rfl,
    alblk_apply m c t cc o (center (t.val % 4) (Nat.mod_lt _ (by decide)) cc) rfl, aop_apply, bop_apply, alop_apply,
    Ideal.ofBits_zero_f32, zero_add, zero_add]
  rfl

/-! ### The result array -/

/-- What the result array ends holding: the specification at the argument arrays. -/
abbrev G (c : Dev nD) : Buf (Elt Ideal) ((c : Thread nD τ).loc main_v18) :=
  result (Ideal.ofBits .f32 0x40000000#32) (garr m c ix0) (xarr m c) (muarr m c) (alarr m c)

/-- After the last point of a row tile the accumulator, at (r, o), is the specification at (2048 · (t / 4) + r, o):
    the four contributions are the four center tiles' sums, and each exponent is the reference's. -/
theorem total (c : Dev nD) (hx : ∀ i, ∃ r : ℝ, xarr m c i = (r : EReal)) (hmu : ∀ i, ∃ r : ℝ, muarr m c i = (r : EReal))
    (hg : ∃ r : ℝ, garr m c ix0 = (r : EReal)) (t : Fin cfg0.N) (h3 : t.val % 4 = 3) (r : Fin 2048) (o : Fin 16)
    (n : Fin 16384) (hn : n.val = 2048 * (t.val / 4) + r.val) :
    (outsAt0 m c t.val t.isLt).2 (ix2 r o) = G m c (ix2 n o) := by
  have hN : t.val < 32 := lt_of_lt_of_eq t.isLt N_0
  have h4 : t.val % 4 + 1 = 4 := by omega
  rw [scratch_after, zero_add, h4, Finset.sum_range]
  show _ = ∑ k : Fin 4096, Ideal.exp (refArg (Ideal.ofBits .f32 0x40000000#32) (garr m c ix0) (xarr m c) (muarr m c) n k)
      * alarr m c (ix2 k o)
  rw [sum_center_tiles]
  refine Finset.sum_congr rfl fun s _ => ?_
  have hs : s.val < 4 := s.isLt
  have hlt : 4 * (t.val / 4) + s.val < cfg0.N := lt_of_lt_of_eq (show 4 * (t.val / 4) + s.val < 32 by omega) N_0.symm
  rw [addend_of_lt m c _ hlt, part_apply m c ⟨_, hlt⟩ r o n (by show n.val = 2048 * ((4 * (t.val / 4) + s.val) / 4) + r.val; omega)]
  refine Finset.sum_congr rfl fun cc _ => ?_
  have hc : center ((⟨4 * (t.val / 4) + s.val, hlt⟩ : Fin cfg0.N).val % 4) (Nat.mod_lt _ (by decide)) cc
      = ⟨1024 * s.val + cc.val, by have := cc.isLt; omega⟩ :=
    Fin.ext (by show 1024 * ((4 * (t.val / 4) + s.val) % 4) + cc.val = 1024 * s.val + cc.val; omega)
  rw [hc, kerArg_eq_refArg _ _ _ _ _ _ two_real hg hx hmu]

/-- What a flushing point writes back is its block of the specification. -/
theorem flushed_eq (c : Dev nD) (hx : ∀ i, ∃ r : ℝ, xarr m c i = (r : EReal)) (hmu : ∀ i, ∃ r : ℝ, muarr m c i = (r : EReal))
    (hg : ∃ r : ℝ, garr m c ix0 = (r : EReal)) (t : Fin cfg0.N) (hf : (cfg0.win 5).flush t = true) :
    (dats m 0 c).flushed 5 t = ((cfg0.win 5).blk t).view.read (Elt Ideal) (G m c) := by
  have h3 : t.val % 4 = 3 := (flush0_5 t).mp hf
  have hN : t.val < 32 := lt_of_lt_of_eq t.isLt N_0
  obtain ⟨-, -, -, -, -, -, -, -, -, -, e0, e1⟩ := idx_facts t
  rw [Value.flushed5, out_after m c t h3]
  funext y
  have hy0 : (y 0).val < 2048 := (y 0).isLt
  have hy1 : (y 1).val < 16 := (y 1).isLt
  show (outsAt0 m c t.val t.isLt).2 y = G m c (((cfg0.win 5).blk t).view.emb y)
  have hemb : ((cfg0.win 5).blk t).view.emb y
      = ix2 (⟨2048 * (t.val / 4) + (y 0).val, by omega⟩ : Fin 16384) (⟨(y 1).val, hy1⟩ : Fin 16) :=
    funext fun a => Fin.ext (by
      match a with
      | ⟨0, _⟩ => show win0_5.index t (0 : Fin 2) * 2048 + 1 * (y 0).val = 2048 * (t.val / 4) + (y 0).val; omega
      | ⟨1, _⟩ => show win0_5.index t (1 : Fin 2) * 16 + 1 * (y 1).val = (y 1).val; omega)
  have hyy : y = ix2 (⟨(y 0).val, hy0⟩ : Fin 2048) (⟨(y 1).val, hy1⟩ : Fin 16) :=
    funext fun a => by match a with | ⟨0, _⟩ => rfl | ⟨1, _⟩ => rfl
  rw [hemb]
  exact (congrArg (outsAt0 m c t.val t.isLt).2 hyy).trans
    (total m c hx hmu hg t h3 ⟨(y 0).val, hy0⟩ ⟨(y 1).val, hy1⟩ _ rfl)

/-- Every element of the result array is in the block of the last point of its row tile. -/
theorem cover (i : S16384x16.Idx) :
    ∃ t : Fin cfg0.N, (cfg0.win 5).flush t = true ∧ i ∈ ((cfg0.win 5).blk t).view.set := by
  have hi0 : (i 0).val < 16384 := (i 0).isLt
  have hi1 : (i 1).val < 16 := (i 1).isLt
  have hlt : 4 * ((i 0).val / 2048) + 3 < cfg0.N := lt_of_lt_of_eq (show 4 * ((i 0).val / 2048) + 3 < 32 by omega) N_0.symm
  refine ⟨⟨4 * ((i 0).val / 2048) + 3, hlt⟩, (flush0_5 _).mpr (by show (4 * ((i 0).val / 2048) + 3) % 4 = 3; omega), ?_⟩
  obtain ⟨-, -, -, -, -, -, -, -, -, -, e0, e1⟩ := idx_facts ⟨4 * ((i 0).val / 2048) + 3, hlt⟩
  have e0' : win0_5.index ⟨4 * ((i 0).val / 2048) + 3, hlt⟩ (0 : Fin 2) = (4 * ((i 0).val / 2048) + 3) / 4 := e0
  show i ∈ ((View.whole main_v18).slice (win0_5.rect ⟨4 * ((i 0).val / 2048) + 3, hlt⟩)).set
  rw [View.set_slice_whole, Rect.mem_set_unit]
  intro a
  match a with
  | ⟨0, _⟩ =>
    show win0_5.index ⟨4 * ((i 0).val / 2048) + 3, hlt⟩ (0 : Fin 2) * 2048 ≤ (i 0).val
      ∧ (i 0).val < win0_5.index ⟨4 * ((i 0).val / 2048) + 3, hlt⟩ (0 : Fin 2) * 2048 + 2048
    rw [e0']; omega
  | ⟨1, _⟩ =>
    show win0_5.index ⟨4 * ((i 0).val / 2048) + 3, hlt⟩ (1 : Fin 2) * 16 ≤ (i 1).val
      ∧ (i 1).val < win0_5.index ⟨4 * ((i 0).val / 2048) + 3, hlt⟩ (1 : Fin 2) * 16 + 16
    rw [e1]; omega

/-- So the result array ends holding the specification. -/
theorem final (c : Dev nD) (hx : ∀ i, ∃ r : ℝ, xarr m c i = (r : EReal)) (hmu : ∀ i, ∃ r : ℝ, muarr m c i = (r : EReal))
    (hg : ∃ r : ℝ, garr m c ix0 = (r : EReal)) : (dats m 0 c).arrAt 5 cfg0.N = G m c :=
  (dats m 0 c).arrAt_eq_of_cover 5 (G m c) (fun t hf => flushed_eq m c hx hmu hg t hf) cover

/-- The run, read: for finite x, mu and g the result array ends at the specification, the arguments unchanged. -/
theorem run (hfin : ∀ c : Dev nD, (∀ i, ∃ r : ℝ, xarr m c i = (r : EReal)) ∧ (∀ i, ∃ r : ℝ, muarr m c i = (r : EReal))
      ∧ (∃ r : ℝ, garr m c ix0 = (r : EReal))) :
    θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfin c).1 (hfin c).2.1 (hfin c).2.2), (h c).2⟩)
    (Value.run_blocks m ρ)

end Cert.KernelIdeal.RbfValue

end
-- ==== Proof.RefSide.lean ====
/-
  The reference program's result, read at one index, is the specification.

  At the output index (n, o) the last stage is the sum over the 4096 centers c of
      exp (stage 15 at (n, c)) · alpha[c, o].
  Stage 15 at (n, c) is the scalar g, broadcast, times
      2 · ⟨x_n, mu_c⟩ − ‖x_n‖² − ‖mu_c‖².
  The inner product is the first contraction at (n, c). The two squared norms are row sums of x ⊙ x
  and of mu ⊙ mu; the first reaches (n, c) through a column broadcast, the second through a column
  broadcast and a transposition. Each row sum starts from the word 0, which is the real number 0, so it
  is the plain sum over the 512 columns. Once the stages have been read what remains is the bookkeeping
  of indices: every composed index function of the stages is a pair of coordinates.
-/
import proofs.«418627_j91164975824956_3_alg».proof.Defs
import proofs.«418627_j91164975824956_3_alg».proof.Proof.Gen.ReferenceIdeal.Read
import proofs.«418627_j91164975824956_3_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The stages' index functions are pairs of coordinates -/

/-- The last contraction reads the exponentials in row n, at the column of the center it sums over. -/
theorem exp_index (n : Fin 16384) (o : Fin 16) (c : Fin 4096) :
    lidx_main_v17 (ix2 n o) c = ix2 n c :=
  funext fun a => Fin.ext (by match a with | ⟨0, _⟩ => rfl | ⟨1, _⟩ => rfl)

/-- It reads alpha in the row of that center, at the output column o. -/
theorem alpha_index (n : Fin 16384) (o : Fin 16) (c : Fin 4096) :
    ridx_main_v17 (ix2 n o) c = ix2 c o :=
  funext fun a => Fin.ext (by match a with | ⟨0, _⟩ => rfl | ⟨1, _⟩ => rfl)

/-- The first contraction at (n, c) reads x in row n. -/
theorem dot_x_index (n : Fin 16384) (c : Fin 4096) (d : Fin 512) :
    lidx_main_v6 (ix2 n c) d = ix2 n d :=
  funext fun a => Fin.ext (by match a with | ⟨0, _⟩ => rfl | ⟨1, _⟩ => rfl)

/-- The first contraction at (n, c) reads mu in row c. -/
theorem dot_mu_index (n : Fin 16384) (c : Fin 4096) (d : Fin 512) :
    ridx_main_v6 (ix2 n c) d = ix2 c d :=
  funext fun a => Fin.ext (by match a with | ⟨0, _⟩ => rfl | ⟨1, _⟩ => rfl)

/-- The squared norm of x, broadcast along the centers, is at (n, c) the sum over row n of x ⊙ x. -/
theorem sq_x_index (n : Fin 16384) (c : Fin 4096) (d : Fin 512) :
    idx_main_v1 (idx_main_v2 (idx_main_v9 (ix2 n c))) d = ix2 n d :=
  funext fun a => Fin.ext (by match a with | ⟨0, _⟩ => rfl | ⟨1, _⟩ => rfl)

/-- The squared norm of mu, turned into a row and broadcast along the samples, is at (n, c) the sum
    over row c of mu ⊙ mu. -/
theorem sq_mu_index (n : Fin 16384) (c : Fin 4096) (d : Fin 512) :
    idx_main_v4 (idx_main_v5 (idx_main_v11 (idx_main_v12 (ix2 n c)))) d = ix2 c d :=
  funext fun a => Fin.ext (by match a with | ⟨0, _⟩ => rfl | ⟨1, _⟩ => rfl)

/-- A broadcast scalar is read at the scalar shape's one index. -/
theorem scalar_index (j : S16384x4096.Idx) : idx_main_v14 j = ix0 := rfl

/-! ## The exponential stage at (n, c) -/

/-- Stage 16 at (n, c) is exp (g · (2 · ⟨x_n, mu_c⟩ − ‖x_n‖² − ‖mu_c‖²)). -/
theorem exp_stage_at (x0 : (⟨S16384x512, .f32⟩ : BufTy).Contents (Elt Ideal)) (x1 : (⟨S4096x512, .f32⟩ : BufTy).Contents (Elt Ideal))
    (x2 : (⟨S_, .f32⟩ : BufTy).Contents (Elt Ideal)) (n : Fin 16384) (c : Fin 4096) :
    val_main_v16 (F := Ideal) x0 x1 x2 (ix2 n c)
      = Ideal.exp (Cert.RbfHead.refArg (Ideal.ofBits .f32 0x40000000#32) (x2 ix0) x0 x1 n c) := by
  rw [val_main_v16_apply, val_main_v15_apply, val_main_v14_apply, val_main_v13_apply, val_main_v10_apply,
    val_main_v8_apply, val_main_v7_apply, val_main_cst_1_apply, val_main_v6_apply,
    val_main_v9_apply, val_main_v2_apply, val_main_v1_apply, val_main_cst_apply,
    val_main_v12_apply, val_main_v11_apply, val_main_v5_apply, val_main_v4_apply, val_main_cst_0_apply]
  simp only [val_main_v0_apply, val_main_v3_apply, dot_x_index, dot_mu_index, sq_x_index, sq_mu_index, scalar_index,
    Ideal.mulf_def, Ideal.subf_def, Ideal.hostUnary_exp_def, Ideal.ofBits_def, Ideal.ofBits_zero_f32, zero_add]
  unfold Cert.RbfHead.refArg Cert.RbfHead.dotRow Cert.RbfHead.sq
  rfl

/-! ## The result -/

/-- The reference's last stage is the specification: at (n, o) the sum over the centers of the
    exponential stage at (n, c) times alpha[c, o]. -/
theorem ref_is_result (x0 : (⟨S16384x512, .f32⟩ : BufTy).Contents (Elt Ideal)) (x1 : (⟨S4096x512, .f32⟩ : BufTy).Contents (Elt Ideal))
    (x2 : (⟨S_, .f32⟩ : BufTy).Contents (Elt Ideal)) (x3 : (⟨S4096x16, .f32⟩ : BufTy).Contents (Elt Ideal)) :
    val_main_v17 (F := Ideal) x0 x1 x2 x3 = Cert.RbfHead.result (Ideal.ofBits .f32 0x40000000#32) (x2 ix0) x0 x1 x3 := by
  funext i
  obtain ⟨n, o, rfl⟩ : ∃ (n : Fin 16384) (o : Fin 16), i = ix2 n o := ⟨i 0, i 1, eq_ix2 i⟩
  rw [val_main_v17_apply]
  unfold Cert.RbfHead.result
  refine Finset.sum_congr rfl fun c _ => ?_
  rw [exp_index, alpha_index, exp_stage_at]

end Cert.ReferenceIdeal.RefValue

end
-- ==== Proof.Finite.lean ====
/-
  From the precondition to finiteness: every entry of x, of mu and the scalar gamma is a real number.

  The precondition says that a conjunction of four tests is true: for each argument array a, that
  |a| < +∞ holds at every index (the scalar has a single index). A conjunction of one-bit words is 1
  only if each of them is; a conjunction taken over a whole array is 1 only if the bit at every
  index is. So at every index |a| < +∞. On the extended reals |a| is max a (−a), which is +∞ both at
  a = +∞ and at a = −∞; hence a is neither, and an extended real that is neither infinity is a real.
  The fourth test, on alpha, is not needed here.
-/
import proofs.«418627_j91164975824956_3_alg».proof.Defs
import proofs.«418627_j91164975824956_3_alg».proof.Proof.Gen.Pre_finite_inputs
import Idealize.ShloMosaic.Lib.ValueIdx
import Idealize.ShloMosaic.Lib.ReduceAll
import Idealize.ShloMosaic.PureOps.Ideal.Laws

noncomputable section

namespace Cert.KernelIdeal.Finite

open Idealize.ShloMosaic Idealize.SL.Sem Idealize.ShloMosaic.ValueIdx

/-- The word 0x7F800000 is +∞: all eight exponent bits set, the fraction zero, the sign clear. -/
theorem inf_word : Ideal.ofBits .f32 0x7F800000#32 = (⊤ : EReal) := by simp [Ideal.ofBits, Ideal.ieee]

/-- An extended real whose absolute value max a (−a) lies strictly below +∞ is a real number:
    at a = −∞ and at a = +∞ the maximum is +∞, which is not below itself. -/
theorem real_of_abs_lt_inf (a : EReal)
    (h : Ideal.cmp .olt (max a (-a)) (Ideal.ofBits .f32 0x7F800000#32) = 1#1) : ∃ r : ℝ, a = (r : EReal) := by
  rw [inf_word] at h
  induction a using EReal.rec with
  | bot => simp [Ideal.cmp] at h
  | coe r => exact ⟨r, rfl⟩
  | top => simp [Ideal.cmp] at h

/-- The scalar shape has one index: a function from the empty set of axes. -/
instance scalarIdx_subsingleton : Subsingleton (⟨0, ![]⟩ : Shape).Idx := ⟨fun a b => funext fun d => d.elim0⟩

/-- Under the precondition every entry of the first two argument arrays, and the scalar third argument,
    is a real number. -/
theorem finite_of_pre [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∃ r : ℝ, m ((c.tc : Thread Cert.KernelIdeal.nD Cert.KernelIdeal.τ).loc Cert.KernelIdeal.main_arg2) ix0 = (r : EReal)) := by
  -- the predicate's one result bit, as the conjunction of the four tests
  have e := congrFun (h c) ix0
  dsimp only [Cert.Pre_finite_inputs.fn, Cert.Pre_finite_inputs.fn_part1] at e
  -- each conjunct is 1
  obtain ⟨e012, _⟩ := IntOp.andi_eq_one.1 e
  obtain ⟨e01, e2⟩ := IntOp.andi_eq_one.1 e012
  obtain ⟨e0, e1⟩ := IntOp.andi_eq_one.1 e01
  -- a conjunction over a whole array is 1 only if every bit is; then the entry is a real
  exact ⟨fun i => real_of_abs_lt_inf _ (Host.reduce_andi_all _ _ _ _ _ e0 i),
    fun i => real_of_abs_lt_inf _ (Host.reduce_andi_all _ _ _ _ _ e1 i),
    real_of_abs_lt_inf _ (Host.reduce_andi_all _ _ _ _ _ e2 ix0)⟩

end Cert.KernelIdeal.Finite

end
-- ==== Proof.lean ====
/-
  An RBF-kernel regression head, fused: for x : [16384, 512], centers mu : [4096, 512], a scalar bandwidth g and
  weights alpha : [4096, 16],

      out[n, o] = Σ_c exp (g · (2 · ⟨x_n, mu_c⟩ − ‖x_n‖² − ‖mu_c‖²)) · alpha[c, o].

  The reference computes exactly this. The kernel folds g into its small operands beforehand
  ((2 · g) · mu, g · ‖x_n‖², g · ‖mu_c‖²), walks a grid of 8 row tiles × 4 center tiles, and keeps a
  [2048, 16] accumulator across the four center tiles of a row tile: zeroed at the first, increased at each by
  that tile's exp-matrix times the tile of alpha, copied to the output block at the last. Over the extended
  reals the grouping of the sum over centers does not matter, and for finite x, mu and g the kernel's exponent
  equals the reference's (g distributes over the difference and 2 · g moves through the inner product: the two
  laws that need the inputs finite). The pieces:
    Spec, SpecLaws   the two exponents, their equality for finite inputs, the regrouping of the sum over centers;
    Payload          the body's arithmetic at one element;
    Pieces           what one run of the body leaves in the accumulator and in the output block;
    Prefix           the five operands the region finds, as functions of the arguments;
    Fold             the accumulator over a row tile's four points, the blocks written back, the result array;
    RefSide          the reference's result, read element by element, is the specification;
    Finite           the precondition makes every entry of x, mu and g a real number.
-/
import proofs.«418627_j91164975824956_3_alg».proof.Defs
import proofs.«418627_j91164975824956_3_alg».proof.Proof.Gen.Kernel
import proofs.«418627_j91164975824956_3_alg».proof.Proof.Gen.Kernel.Skeleton
import proofs.«418627_j91164975824956_3_alg».proof.Proof.Gen.Kernel.Launch
import proofs.«418627_j91164975824956_3_alg».proof.Proof.Gen.Kernel.Points
import proofs.«418627_j91164975824956_3_alg».proof.Proof.Gen.Kernel.Frame
import proofs.«418627_j91164975824956_3_alg».proof.Proof.Gen.KernelIdeal
import proofs.«418627_j91164975824956_3_alg».proof.Proof.Gen.KernelIdeal.Skeleton
import proofs.«418627_j91164975824956_3_alg».proof.Proof.Gen.KernelIdeal.Launch
import proofs.«418627_j91164975824956_3_alg».proof.Proof.Gen.KernelIdeal.Points
import proofs.«418627_j91164975824956_3_alg».proof.Proof.Gen.KernelIdeal.Frame
import proofs.«418627_j91164975824956_3_alg».proof.Proof.Gen.ReferenceIdeal
import proofs.«418627_j91164975824956_3_alg».proof.Proof.Gen.Pre_finite_inputs
import proofs.«418627_j91164975824956_3_alg».proof.Proof.Gen.KernelIdeal.Value
import proofs.«418627_j91164975824956_3_alg».proof.Proof.Gen.ReferenceIdeal.Run
import proofs.«418627_j91164975824956_3_alg».proof.Proof.Gen.ReferenceIdeal.Read
import proofs.«418627_j91164975824956_3_alg».proof.Proof.Fold
import proofs.«418627_j91164975824956_3_alg».proof.Proof.RefSide
import proofs.«418627_j91164975824956_3_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification at arguments that agree: the kernel by the accumulation over center
    tiles and the equality of the exponents for finite inputs, the reference by reading its operations. -/
theorem algebraic : Cert.algebraic_KernelIdeal_ReferenceIdeal := by
  intro m ρ m' ρ' hpre hagree
  refine ⟨fun c => Cert.KernelIdeal.RbfValue.G m c,
    Cert.KernelIdeal.RbfValue.run m ρ (fun c => Cert.KernelIdeal.Finite.finite_of_pre m hpre c), ?_⟩
  refine (θ_run Cert.ReferenceIdeal.defs _ _).mono (fun _ h c => ⟨(h c).1.trans ?_, (h c).2⟩)
    (Cert.ReferenceIdeal.Value.run (F := Ideal) m' ρ')
  show _ = Cert.KernelIdeal.RbfValue.G m c
  rw [(hagree c).1, (hagree c).2.1, (hagree c).2.2.1, (hagree c).2.2.2]
  exact Cert.ReferenceIdeal.RefValue.ref_is_result _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
